-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x64 : Shape := ⟨2, ![128, 64]⟩
abbrev S50000x64 : Shape := ⟨2, ![50000, 64]⟩
abbrev S5000x128 : Shape := ⟨2, ![5000, 128]⟩
abbrev S5000x64 : Shape := ⟨2, ![5000, 64]⟩
abbrev S800000x1 : Shape := ⟨2, ![800000, 1]⟩
abbrev S_ : Shape := ⟨0, ![]⟩
abbrev S800000x64 : Shape := ⟨2, ![800000, 64]⟩

abbrev nBuf : Space → Nat
  | .hbm => 25
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.BlockProduct.lean ====
/-
  One grid point of the projection h = x · w.  The body loads a block of 5000 rows of x and the whole of w,
  changes both to bf16 (the identity on extended reals), multiplies them into a zero accumulator and stores the
  product.  Read at an entry (p, q) of the block, what it stores is the plain sum over the contracted axis,
  ∑ k, x₀ (p, k) · w (k, q).
-/
import proofs.«404170_j11269994185513_3_alg».proof.Proof.Gen.KernelIdeal.Frame
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## Where the block product reads its operands -/

/-- Along its first axis the left operand is read at the output's row. -/
theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Along its second axis the left operand is read at the contraction index. -/
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Along its first axis the right operand is read at the contraction index. -/
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Along its second axis the right operand is read at the output's column. -/
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of i, k) of a block of rows. -/
abbrev rowAt (i : S5000x64.Idx) (k : Fin 128) : S5000x128.Idx := fun a => match a with
  | ⟨0, _⟩ => ⟨(i 0).val, (i 0).isLt⟩
  | ⟨1, _⟩ => ⟨k.val, k.isLt⟩
/-- Entry (k, column of i) of the weight matrix. -/
abbrev colAt (i : S5000x64.Idx) (k : Fin 128) : S128x64.Idx := fun a => match a with
  | ⟨0, _⟩ => ⟨k.val, k.isLt⟩
  | ⟨1, _⟩ => ⟨(i 1).val, (i 1).isLt⟩

/-! ## The stored block at an entry -/

/-- What one grid point stores, at entry i of its block: the sum over k of the row block's (row, k) entry
    times the weight's (k, column) entry.  The two changes of format are the identity, and the accumulator the
    product starts from is zero. -/
theorem stored_apply (x0 : Vec Ideal S5000x128 .f32) (x1 : Vec Ideal S128x64 .f32) (i : S5000x64.Idx) :
    k0_pay1 (F := Ideal) x0 x1 i = ∑ k : Fin 128, x0 (rowAt i k) * x1 (colAt i k) := by
  unfold k0_pay1
  refine (Ideal.matmul_constant_zero_apply dot_S5000x128_S128x64_S5000x64_1_0_0_1_n_n none _ _ i).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx i ((ValueIdx.contrEquiv1 dot_S5000x128_S128x64_S5000x64_1_0_0_1_n_n 128 rfl rfl).symm k) = colAt i k := funext fun a => Fin.ext (by
    match a with
    | ⟨0, _⟩ => exact (rhs_axis0 _ _).trans hk
    | ⟨1, _⟩ => exact rhs_axis1 _ _)
  rw [el, er]
  rfl

end Cert.KernelIdeal.BlockProduct

end
-- ==== Proof.MatrixProduct.lean ====
/-
  The specification of the projection: the product of a 50000 × 128 matrix x and a 128 × 64 matrix w of extended
  reals, entry by entry, h (r, q) = ∑ k, x (r, k) · w (k, q).  Both programs are shown to compute this function.
-/
import Idealize.ShloMosaic.PureOps.Ideal

noncomputable section

namespace Cert.MatrixProduct

open Idealize.ShloMosaic

/-- The shape of x. -/
abbrev SX : Shape := ⟨2, ![50000, 128]⟩
/-- The shape of w. -/
abbrev SW : Shape := ⟨2, ![128, 64]⟩
/-- The shape of h. -/
abbrev SH : Shape := ⟨2, ![50000, 64]⟩

/-- Entry (row of i, k) of x. -/
abbrev xAt (i : SH.Idx) (k : Fin 128) : SX.Idx := fun a => match a with
  | ⟨0, _⟩ => ⟨(i 0).val, (i 0).isLt⟩
  | ⟨1, _⟩ => ⟨k.val, k.isLt⟩
/-- Entry (k, column of i) of w. -/
abbrev wAt (i : SH.Idx) (k : Fin 128) : SW.Idx := fun a => match a with
  | ⟨0, _⟩ => ⟨k.val, k.isLt⟩
  | ⟨1, _⟩ => ⟨(i 1).val, (i 1).isLt⟩

/-- The matrix product. -/
abbrev product (x : SX.Idx → EReal) (w : SW.Idx → EReal) : SH.Idx → EReal :=
  fun i => ∑ k : Fin 128, x (xAt i k) * w (wAt i k)

end Cert.MatrixProduct

end
-- ==== Proof.Projection.lean ====
/-
  The whole projection h = x · w.  Grid point t works on rows 5000·t … 5000·t + 4999: it is handed that block of rows
  of x and the whole of w, and the block it stores is written back to the same rows of h.  The ten row blocks tile the
  50000 rows, so when the region is left, h (r, q) = ∑ k, x (r, k) · w (k, q) at every entry.
-/
import proofs.«404170_j11269994185513_3_alg».proof.Proof.BlockProduct
import proofs.«404170_j11269994185513_3_alg».proof.Proof.MatrixProduct
import Idealize.ShloMosaic.Lib.Pipeline.Value

noncomputable section

namespace Cert.KernelIdeal.Projection

open Cert.KernelIdeal Cert.KernelIdeal.Gen Cert.KernelIdeal.BlockProduct Cert.MatrixProduct
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Each write-back is a block of rows of the product -/

/-- The array x as the region finds it, at its literal type. -/
abbrev xarr (c : Dev nD) : S50000x128.Idx → EReal := V m c main_arg0
/-- The array w as the region finds it, at its literal type. -/
abbrev warr (c : Dev nD) : S128x64.Idx → EReal := V m c main_arg4

/-- The printed index maps over the ten grid points: the x block and the h block of point t are both row block t,
    the w block is always the whole matrix, and no block moves along the columns. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block is some point's. -/
theorem block_reached : ∀ q : Fin 10, ∃ t : Fin cfg0.N, win0_2.index t = ![q.val, 0] :=
  (by decide +kernel : ∀ q : Fin 10, ∃ t : Fin grid0.N, win0_2.index t = ![q.val, 0])

/-- What point t writes back is block t of the product of the argument arrays. -/
theorem flushed_eq (c : Dev nD) (t : Fin cfg0.N) :
    (dats m 0 c).flushed 2 t = ((cfg0.win 2).blk t).view.read (Elt Ideal) (product (xarr m c) (warr m c)) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := block_indices t
  funext j
  refine (stored_apply (iblk m c 0 t) (iblk m c 1 t) j).trans ?_
  show ∑ k : Fin 128, xarr m c (((cfg0.win 0).blk t).view.emb (rowAt j k)) * warr m c (((cfg0.win 1).blk t).view.emb (colAt j k))
    = ∑ k : Fin 128, xarr m c (xAt (((cfg0.win 2).blk t).view.emb j) k) * warr m c (wAt (((cfg0.win 2).blk t).view.emb j) k)
  refine Finset.sum_congr rfl fun k _ => ?_
  have h0 : ((cfg0.win 0).blk t).view.emb (rowAt j k) = xAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt j k) = wAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-! ## The row blocks tile h -/

/-- An entry of h is in point t's block iff each of its coordinates is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r lies in row block r / 5000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_reached ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array h when the region is left: the product of the argument arrays x and w. -/
theorem final (c : Dev nD) :
    (dats m 0 c).arrAt 2 cfg0.N = product (m ((c : Thread nD τ).loc main_arg0)) (m ((c : Thread nD τ).loc main_arg4)) :=
  (dats m 0 c).arrAt_eq_of_cover 2 (product (xarr m c) (warr m c)) (fun t _ => flushed_eq m c t) covered

end Cert.KernelIdeal.Projection

end
-- ==== Proof.EdgeAggregate.lean ====
/-
  Everything the two programs do after the projection h = x · w, as one function of h and of the edge arrays.
  A negative source index is wrapped once by the number of nodes, 50000; row src(e) of h is gathered for every edge e
  and scaled by the edge's weight; the scaled rows are added into row dst(e) of a zero matrix; and the sum is cut off
  below at zero.  Both programs print exactly these operations, so this text is stated once and never opened.
-/
import proofs.«404170_j11269994185513_3_alg».proof.Proof.Gen.ReferenceIdeal
import Idealize.ShloMosaic.PureOps.Ideal

noncomputable section

namespace Cert.ReferenceIdeal.EdgeAggregate

open Cert.ReferenceIdeal Cert.ReferenceIdeal.Gen Idealize.ShloMosaic Idealize.ShloMosaic.TcCoe Idealize.SL.Sem

/-- relu (segment_sum (weight · h[src], dst)) over the extended reals, in the operations both programs print. -/
def aggregate (h : (⟨S50000x64, .f32⟩ : BufTy).Contents (Elt Ideal)) (src dst : (⟨S800000, .i32⟩ : BufTy).Contents (Elt Ideal))
    (weight : (⟨S800000, .f32⟩ : BufTy).Contents (Elt Ideal)) : (⟨S50000x64, .f32⟩ : BufTy).Contents (Elt Ideal) :=
  maximumf (F := Ideal) (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 dst) (mulf (F := Ideal) (broadcastInDim S800000x64 ![0, 1] bcast_S800000x1_S800000x64_0_1 (broadcastInDim S800000x1 ![0] bcast_S800000_S800000x1_0 weight)) (Host.gather gather_S50000x64_S800000x1_S800000x64_1_0_n_n_0_1_164 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x64 ![] bcast_S_S50000x64 (constant (F := Ideal) S_ .f32 0x00000000#32))

end Cert.ReferenceIdeal.EdgeAggregate

end
-- ==== Proof.KernelRun.lean ====
/-
  The kernel's run, read.  When the region is left the array h holds the product of x and w (the ten row blocks), and
  the region touches none of the edge arrays.  The nineteen host operations after it are the shared tail, applied to
  h and to the edge arrays as the program was launched with them.
-/
import proofs.«404170_j11269994185513_3_alg».proof.Proof.Projection
import proofs.«404170_j11269994185513_3_alg».proof.Proof.EdgeAggregate
import Idealize.ShloMosaic.Lib.StableHlo.Run

noncomputable section

namespace Cert.KernelIdeal.KernelValue

open Cert.KernelIdeal Cert.KernelIdeal.Gen Cert.KernelIdeal.Projection Cert.MatrixProduct
open Cert.ReferenceIdeal.EdgeAggregate (aggregate)
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the operations after the region find -/

/-- The buffers as the region leaves them: its arrays as written back, every other buffer as launched. -/
abbrev left (c : Dev nD) : Valuation τ sig (Elt Ideal) :=
  Pipeline.withArrays spec0 c (V0 m c) fun w => (dats m 0 c).arrAt w cfg0.N

/-- h is the product of x and w. -/
theorem left_h (c : Dev nD) :
    left m c (Proc.devRef .tc main_v0) = product (m ((c : Thread nD τ).loc main_arg0)) (m ((c : Thread nD τ).loc main_arg4)) :=
  (Pipeline.withArrays_arr spec0 launch0.win.arr_inj c _ _ 2).trans (final m c)
/-- The source indices are as launched. -/
theorem left_src (c : Dev nD) : left m c (Proc.devRef .tc main_arg1) = m ((c : Thread nD τ).loc main_arg1) :=
  (Pipeline.withArrays_of_ne _ c (V0 m c) _ main_arg1 (by decide : ∀ w, Pipeline.arrRef spec0 w ≠ main_arg1)).trans (V_main_arg1 m c)
/-- The destination indices are as launched. -/
theorem left_dst (c : Dev nD) : left m c (Proc.devRef .tc main_arg2) = m ((c : Thread nD τ).loc main_arg2) :=
  (Pipeline.withArrays_of_ne _ c (V0 m c) _ main_arg2 (by decide : ∀ w, Pipeline.arrRef spec0 w ≠ main_arg2)).trans (V_main_arg2 m c)
/-- The edge weights are as launched. -/
theorem left_weight (c : Dev nD) : left m c (Proc.devRef .tc main_arg3) = m ((c : Thread nD τ).loc main_arg3) :=
  (Pipeline.withArrays_of_ne _ c (V0 m c) _ main_arg3 (by decide : ∀ w, Pipeline.arrRef spec0 w ≠ main_arg3)).trans (V_main_arg3 m c)

/-! ## The result -/

/-- The program's result: the tail of the product of x and w. -/
theorem result_eq (c : Dev nD) :
    Pipeline.afterTail₀ cfgs (dats m) 0 (V0 m) [hostOps1] c main_v15
      = aggregate (product (m ((c : Thread nD τ).loc main_arg0)) (m ((c : Thread nD τ).loc main_arg4)))
          (m ((c : Thread nD τ).loc main_arg1)) (m ((c : Thread nD τ).loc main_arg2)) (m ((c : Thread nD τ).loc main_arg3)) := by
  unfold Pipeline.afterTail₀
  show StableHlo.after hostOps1 (left m c) (Proc.devRef .tc main_v15) = _
  after_results
  rw [left_h m c, left_src m c, left_dst m c, left_weight m c]
  rfl

/-- The kernel's run: every weakly fair execution ends with the result at the tail of the product of x and w, the
    arguments unchanged. -/
theorem run : θ_run defs (onTc (τ := τ) (main (F := Ideal))) ⟨m, fun _ => 0, ρ⟩ fun r => ∀ c : Dev nD,
      r.2.mem ((c.tc : Thread nD τ).loc main_v15)
          = aggregate (product (m ((c.tc : Thread nD τ).loc main_arg0)) (m ((c.tc : Thread nD τ).loc main_arg4)))
              (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v15 (Pipeline.mem_restRefs_of main_v15 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c)))⟩)
    (run_main m ρ)

end Cert.KernelIdeal.KernelValue

end
-- ==== Proof.RefSide.lean ====
/-
  The reference.  Its first operation is the host's dot_general of x and w, which over the extended reals is the
  matrix product entry by entry (the sum over the contracted axis, no order left in it); every later operation is the
  shared tail.  So the reference's result is the tail of the product.
-/
import proofs.«404170_j11269994185513_3_alg».proof.Proof.Gen.ReferenceIdeal.Run
import proofs.«404170_j11269994185513_3_alg».proof.Proof.Gen.ReferenceIdeal.Read
import proofs.«404170_j11269994185513_3_alg».proof.Proof.MatrixProduct
import proofs.«404170_j11269994185513_3_alg».proof.Proof.EdgeAggregate

noncomputable section

namespace Cert.ReferenceIdeal.RefValue

open Cert.ReferenceIdeal Cert.ReferenceIdeal.Gen Cert.ReferenceIdeal.EdgeAggregate Cert.MatrixProduct
open Idealize.ShloMosaic Idealize.ShloMosaic.TcCoe Idealize.SL.Sem

/-- The host's dot_general of x and w is their matrix product: at entry i both are the sum over k of
    x (row of i, k) · w (k, column of i). -/
theorem projection_eq (x : (⟨S50000x128, .f32⟩ : BufTy).Contents (Elt Ideal)) (w : (⟨S128x64, .f32⟩ : BufTy).Contents (Elt Ideal)) :
    Read.val_main_v0 (F := Ideal) x w = product x w := by
  funext i
  refine (Read.val_main_v0_apply x w i).trans ?_
  refine Finset.sum_congr rfl fun k _ => ?_
  have el : Read.lidx_main_v0 i k = xAt i k := funext fun a => Fin.ext (by
    match a with
    | ⟨0, _⟩ => rfl
    | ⟨1, _⟩ => rfl)
  have er : Read.ridx_main_v0 i k = wAt i k := funext fun a => Fin.ext (by
    match a with
    | ⟨0, _⟩ => rfl
    | ⟨1, _⟩ => rfl)
  rw [el, er]

/-- The reference's run: every weakly fair execution ends with the result at the tail of the product of x and w, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = aggregate (product (m ((c.tc : Thread nD τ).loc main_arg0)) (m ((c.tc : Thread nD τ).loc main_arg4)))
              (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [← projection_eq (m ((c.tc : Thread nD τ).loc main_arg0)) (m ((c.tc : Thread nD τ).loc main_arg4))]
      rfl), (h c).2⟩)
    (Cert.ReferenceIdeal.Value.run (F := Ideal) m ρ)

end Cert.ReferenceIdeal.RefValue

end
-- ==== Proof.lean ====
/-
  A graph convolution: h = x · w, then out = relu (segment_sum (weight · h[src], dst)).

  The kernel computes h in a Pallas call over ten blocks of 5000 rows, each block the product of its rows of x with
  the whole of w (both changed to bf16 first, which is the identity on extended reals, and accumulated from zero);
  the reference computes h by one dot_general on the host.  At an entry (r, q) both are ∑ k, x (r, k) · w (k, q):
  a sum of products over the same index set, so no law beyond that is used and the inputs' finiteness is never needed.
  Everything after h (wrapping negative source indices, the gather, the scaling, the scatter-add, the cut-off at
  zero) is printed with the same operations and literals in both programs and is treated as one function of h and the
  edge arrays, never opened.

  The frames of the two kernel programs are the generated ones; the reference's frame is its run with the result
  dropped; the idealized kernel is the kernel's own text read over the extended reals, no operation rewritten, so the
  preservation claim is trivial.
-/
import proofs.«404170_j11269994185513_3_alg».proof.Defs
import proofs.«404170_j11269994185513_3_alg».proof.Proof.Gen.Kernel
import proofs.«404170_j11269994185513_3_alg».proof.Proof.Gen.Kernel.Skeleton
import proofs.«404170_j11269994185513_3_alg».proof.Proof.Gen.Kernel.Launch
import proofs.«404170_j11269994185513_3_alg».proof.Proof.Gen.Kernel.Points
import proofs.«404170_j11269994185513_3_alg».proof.Proof.Gen.Kernel.Frame
import proofs.«404170_j11269994185513_3_alg».proof.Proof.Gen.KernelIdeal
import proofs.«404170_j11269994185513_3_alg».proof.Proof.Gen.KernelIdeal.Skeleton
import proofs.«404170_j11269994185513_3_alg».proof.Proof.Gen.KernelIdeal.Launch
import proofs.«404170_j11269994185513_3_alg».proof.Proof.Gen.KernelIdeal.Points
import proofs.«404170_j11269994185513_3_alg».proof.Proof.Gen.KernelIdeal.Frame
import proofs.«404170_j11269994185513_3_alg».proof.Proof.Gen.ReferenceIdeal
import proofs.«404170_j11269994185513_3_alg».proof.Proof.Gen.Pre_finite_inputs
import proofs.«404170_j11269994185513_3_alg».proof.Proof.KernelRun
import proofs.«404170_j11269994185513_3_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the tail of the product of x and w, of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
